-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S40x128x512 : Shape := ⟨3, ![40, 128, 512]⟩
abbrev S65536 : Shape := ⟨1, ![65536]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S40x128x512 : S_.BroadcastsInDim S40x128x512 (![] : Fin 0 → Fin S40x128x512.rank)
  reducesTo_S40x128x512_S_d0_1_2 : S40x128x512.ReducesTo [0, 1, 2] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg4 : IVec S65536 32) (main_arg5 : IVec S65536 32) (main_v13 : IVec S_ 1) (main_v15 : IVec S65536 1) (main_c_5 : IVec S_ 32) : IVec S_ 1 :=
  let main_v16 : IVec S65536 32 := broadcastInDim S65536 ![] bcast_S_S65536 main_c_5
  let main_v17 : IVec S65536 1 := cmpi .slt main_arg4 main_v16
  let main_v18 : IVec S65536 1 := andi main_v15 main_v17
  let main_c_6 : IVec S_ 1 := constantI S_ 1 1#1
  let main_v19 : IVec S_ 1 := (fun x v => Host.reduce IntOp.andi x v reducesTo_S65536_S_d0 h_S_) main_v18 main_c_6
  let main_v20 : IVec S_ 1 := andi main_v13 main_v19
  let main_c_7 : IVec S_ 32 := constantI S_ 32 0#32
  let main_v21 : IVec S65536 32 := broadcastInDim S65536 ![] bcast_S_S65536 main_c_7
  let main_v22 : IVec S65536 1 := cmpi .sge main_arg5 main_v21
  let main_c_8 : IVec S_ 32 := constantI S_ 32 128#32
  let main_v23 : IVec S65536 32 := broadcastInDim S65536 ![] bcast_S_S65536 main_c_8
  let main_v24 : IVec S65536 1 := cmpi .slt main_arg5 main_v23
  let main_v25 : IVec S65536 1 := andi main_v22 main_v24
  let main_c_9 : IVec S_ 1 := constantI S_ 1 1#1
  let main_v26 : IVec S_ 1 := (fun x v => Host.reduce IntOp.andi x v reducesTo_S65536_S_d0 h_S_) main_v25 main_c_9
  let main_v27 : IVec S_ 1 := andi main_v20 main_v26
  main_v27

def fn {F : FTy → Type} [FloatOps F] (main_arg0 : FVec F S8x512x256 .f32) (main_arg1 : FVec F S40x128x512 .f32) (main_arg2 : FVec F S65536 .f32) (main_arg3 : IVec S65536 32) (main_arg4 : IVec S65536 32) (main_arg5 : IVec S65536 32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S40x128x512 .f32 := Host.absf main_arg1
  let main_cst_0 : FVec F S_ .f32 := constant S_ .f32 0x7F800000#32
  let main_v5 : FVec F S40x128x512 .f32 := broadcastInDim S40x128x512 ![] bcast_S_S40x128x512 main_cst_0
  let main_v6 : IVec S40x128x512 1 := cmpf .olt main_v4 main_v5
  let main_c_1 : IVec S_ 1 := constantI S_ 1 1#1
  let main_v7 : IVec S_ 1 := (fun x v => Host.reduce IntOp.andi x v reducesTo_S40x128x512_S_d0_1_2 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg4 main_v14
  let main_c_5 : IVec S_ 32 := constantI S_ 32 40#32
  fn_part1 (F := F) main_arg4 main_arg5 main_v13 main_v15 main_c_5
-- ==== Kernel.lean ====
abbrev S8x512x256 : Shape := ⟨3, ![8, 512, 256]⟩
abbrev S40x128x512 : Shape := ⟨3, ![40, 128, 512]⟩
abbrev S65536 : Shape := ⟨1, ![65536]⟩
abbrev S_ : Shape := ⟨0, ![]⟩
abbrev S5120x512 : Shape := ⟨2, ![5120, 512]⟩
abbrev S1x65536 : Shape := ⟨2, ![1, 65536]⟩
abbrev S4096x512 : Shape := ⟨2, ![4096, 512]⟩
abbrev S1x512 : Shape := ⟨2, ![1, 512]⟩
abbrev S512 : Shape := ⟨1, ![512]⟩
abbrev S512x5120 : Shape := ⟨2, ![512, 5120]⟩
abbrev S512x1 : Shape := ⟨2, ![512, 1]⟩
abbrev S512x512 : Shape := ⟨2, ![512, 512]⟩
abbrev S8x512x512 : Shape := ⟨3, ![8, 512, 512]⟩
abbrev S8x512x768 : Shape := ⟨3, ![8, 512, 768]⟩

abbrev nBuf : Space → Nat
  | .hbm => 18
  | .vmem => 8
  | .smem => 0
  | _ => 0

abbrev bufTy : (tb : Table) → Fin (tcTables nBuf tb) → BufTy
  | .hbm, ⟨0, _⟩ => ⟨S8x512x256, .f32⟩
  | .hbm, ⟨1, _⟩ => ⟨S40x128x512, .f32⟩
  | .hbm, ⟨2, _⟩ => ⟨S65536, .f32⟩
  | .hbm, ⟨3, _⟩ => ⟨S65536, .i32⟩
  | .hbm, ⟨4, _⟩ => ⟨S65536, .i32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S5120x512, .f32⟩
  | .hbm, ⟨11, _⟩ => ⟨S5120x512, .bf16⟩
  | .hbm, ⟨12, _⟩ => ⟨S1x65536, .i32⟩
  | .hbm, ⟨13, _⟩ => ⟨S1x65536, .f32⟩
  | .hbm, ⟨14, _⟩ => ⟨S1x65536, .i32⟩
  | .hbm, ⟨15, _⟩ => ⟨S4096x512, .f32⟩
  | .hbm, ⟨16, _⟩ => ⟨S8x512x512, .f32⟩
  | .hbm, ⟨17, _⟩ => ⟨S8x512x768, .f32⟩
  | .local _ .vmem, ⟨0, _⟩ => ⟨S1x512, .i32⟩
  | .local _ .vmem, ⟨1, _⟩ => ⟨S1x512, .i32⟩
  | .local _ .vmem, ⟨2, _⟩ => ⟨S1x512, .f32⟩
  | .local _ .vmem, ⟨3, _⟩ => ⟨S1x512, .f32⟩
  | .local _ .vmem, ⟨4, _⟩ => ⟨S1x512, .i32⟩
  | .local _ .vmem, ⟨5, _⟩ => ⟨S1x512, .i32⟩
  | .local _ .vmem, ⟨6, _⟩ => ⟨S5120x512, .bf16⟩
  | .local _ .vmem, ⟨7, _⟩ => ⟨S4096x512, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S65536 : S_.BroadcastsInDim S65536 (![] : Fin 0 → Fin S65536.rank)
  shapeCasts_S40x128x512_S5120x512 : S40x128x512.ShapeCasts S5120x512
  bitsLt_bf16_f32 : FTy.bits .bf16 < FTy.bits .f32
  shapeCasts_S65536_S1x65536 : S65536.ShapeCasts S1x65536
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S512 : S1x512.ShapeCasts S512
  iota_S512x5120_d1_w32 : S512x5120.Iotas .tc 32 [1]
  shapeCasts_S512_S512x1 : S512.ShapeCasts S512x1
  broadcasts_S512x1_S512x5120 : S512x1.Broadcasts S512x5120
  natLt_1_32 : 1 < 32
  inb_S5120x512_S5120x512_0_0 : ∀ a, (![0, 0] : Fin 2 → Nat) a + S5120x512.size a ≤ S5120x512.size a
  h_S5120x512 : 0 < S5120x512.numel
  shapeCasts_S5120x512_S5120x512 : S5120x512.ShapeCasts S5120x512
  broadcasts_S512x1_S512x512 : S512x1.Broadcasts S512x512
  iota_S4096x512_d0_w32 : S4096x512.Iotas .tc 32 [0]
  shapeCasts_S512_S1x512 : S512.ShapeCasts S1x512
  broadcasts_S1x512_S4096x512 : S1x512.Broadcasts S4096x512
  shapeCasts_S4096x512_S4096x512 : S4096x512.ShapeCasts S4096x512
  shapeCasts_S4096x512_S8x512x512 : S4096x512.ShapeCasts S8x512x512
  concatenates_S8x512x256_S8x512x512_S8x512x768_d2 : Shape.Concatenates [S8x512x256, S8x512x512] S8x512x768 2
  dot_S512x5120_S5120x512_S512x512_1_0_0_1_n_n_wf : DotDims.WF S512x5120 S5120x512 S512x512 [1] [0] [0] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x65536.size a
  hwx0_0 : ∀ i : grid0.Coords, EltTy.bits .i32 = 32 ∨ (Rect.block (s := S1x65536) S1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x65536.size a
  hwx0_1 : ∀ i : grid0.Coords, EltTy.bits .f32 = 32 ∨ (Rect.block (s := S1x65536) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x65536.size a
  hwx0_2 : ∀ i : grid0.Coords, EltTy.bits .i32 = 32 ∨ (Rect.block (s := S1x65536) S1x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5120x512.size a ≤ S5120x512.size a
  hwx0_3 : ∀ i : grid0.Coords, EltTy.bits .bf16 = 32 ∨ (Rect.block (s := S5120x512) S5120x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .f32 = 32 ∨ (Rect.block (s := S4096x512) S4096x512.size (cc0_transform_4 i) (hinb0_4 i)).WholeWords (EltTy.packing .f32)

variable [Facts₀]

def dot_S512x5120_S5120x512_S512x512_1_0_0_1_n_n : DotDims S512x5120 S5120x512 S512x512 where
  lhsContracting := [1]
  rhsContracting := [0]
  lhsNonContracting := [0]
  rhsNonContracting := [1]
  lhsBatch := []
  rhsBatch := []
  wf := dot_S512x5120_S5120x512_S512x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_v5) S1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5120x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4096x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x256 : Shape := ⟨3, ![8, 512, 256]⟩
abbrev S40x128x512 : Shape := ⟨3, ![40, 128, 512]⟩
abbrev S65536 : Shape := ⟨1, ![65536]⟩
abbrev S_ : Shape := ⟨0, ![]⟩
abbrev S65536x1 : Shape := ⟨2, ![65536, 1]⟩
abbrev S65536x2 : Shape := ⟨2, ![65536, 2]⟩
abbrev S65536x512 : Shape := ⟨2, ![65536, 512]⟩
abbrev S4096x512 : Shape := ⟨2, ![4096, 512]⟩
abbrev S8x512x512 : Shape := ⟨3, ![8, 512, 512]⟩
abbrev S8x512x768 : Shape := ⟨3, ![8, 512, 768]⟩

abbrev nBuf : Space → Nat
  | .hbm => 33
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S40x128x512, .f32⟩
  | .hbm, ⟨2, _⟩ => ⟨S65536, .f32⟩
  | .hbm, ⟨3, _⟩ => ⟨S65536, .i32⟩
  | .hbm, ⟨4, _⟩ => ⟨S65536, .i32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S_, .i32⟩
  | .hbm, ⟨14, _⟩ => ⟨S65536, .i32⟩
  | .hbm, ⟨15, _⟩ => ⟨S65536, .i1⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S65536, .i32⟩
  | .hbm, ⟨20, _⟩ => ⟨S65536x1, .i32⟩
  | .hbm, ⟨21, _⟩ => ⟨S65536x1, .i32⟩
  | .hbm, ⟨22, _⟩ => ⟨S65536x2, .i32⟩
  | .hbm, ⟨23, _⟩ => ⟨S65536x512, .f32⟩
  | .hbm, ⟨24, _⟩ => ⟨S65536x1, .f32⟩
  | .hbm, ⟨25, _⟩ => ⟨S65536x512, .f32⟩
  | .hbm, ⟨26, _⟩ => ⟨S65536x512, .f32⟩
  | .hbm, ⟨27, _⟩ => ⟨S_, .f32⟩
  | .hbm, ⟨28, _⟩ => ⟨S4096x512, .f32⟩
  | .hbm, ⟨29, _⟩ => ⟨S65536x1, .i32⟩
  | .hbm, ⟨30, _⟩ => ⟨S4096x512, .f32⟩
  | .hbm, ⟨31, _⟩ => ⟨S8x512x512, .f32⟩
  | .hbm, ⟨32, _⟩ => ⟨S8x512x768, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S65536x1_S65536x512_0_1 : S65536x1.BroadcastsInDim S65536x512 (![0, 1] : Fin 2 → Fin S65536x512.rank)
  bcast_S_S4096x512 : S_.BroadcastsInDim S4096x512 (![] : Fin 0 → Fin S4096x512.rank)
  shapeCasts_S4096x512_S8x512x512 : S4096x512.ShapeCasts S8x512x512
  concatenates_S8x512x256_S8x512x512_S8x512x768_d2 : Shape.Concatenates [S8x512x256, S8x512x512] S8x512x768 2
  gather_S40x128x512_S65536x2_S65536x512_1_01_n_n_01_1_11512_wf : GatherDims.WF S40x128x512 S65536x2 S65536x512 [1] [0, 1] [] [0, 1] [] 1 ![1, 1, 512]
  scatter_S4096x512_S65536x1_S65536x512_1_0_0_1_wf : ScatterDims.WF S4096x512 S65536x1 S65536x512 [1] [0] [0] 1

variable [Facts₀]

def gather_S40x128x512_S65536x2_S65536x512_1_01_n_n_01_1_11512 : GatherDims S40x128x512 S65536x2 S65536x512 where
  offsetDims := [1]
  collapsedSliceDims := [0, 1]
  operandBatchingDims := []
  startIndicesBatchingDims := []
  startIndexMap := [0, 1]
  indexVectorDim := 1
  sliceSizes := ![1, 1, 512]
  wf := gather_S40x128x512_S65536x2_S65536x512_1_01_n_n_01_1_11512_wf
def scatter_S4096x512_S65536x1_S65536x512_1_0_0_1 : ScatterDims S4096x512 S65536x1 S65536x512 where
  updateWindowDims := [1]
  insertedWindowDims := [0]
  scatterDimsToOperandDims := [0]
  indexVectorDim := 1
  wf := scatter_S4096x512_S65536x1_S65536x512_1_0_0_1_wf

class Facts : Prop extends Facts₀ where

variable [Facts]
-- ==== Proof.KAcc.lean ====
/-
  What the output block holds after each grid point.

  The output window's block is the whole 4096 × 512 array and its index never moves, so the block is carried from point
  to point and written back once, after the last point. At point 0 the body first stores the zero block, then reads it
  back and stores `zero + (this chunk's contribution)`; at every later point it reads what the point before left and
  stores `that + (this chunk's contribution)`. The contribution is the body's one arithmetic term (the payload `k0_pay2`
  of the chunk's three 512-entry blocks, the table and the block read back), so the block after point `n` is that term
  iterated `n + 1` times from the zero block: `carried` below, by induction on the point.
-/
import proofs.«407564_j22058952032948_1_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- A LATER POINT: over a block holding `xo` the body leaves its arithmetic term of the chunk's blocks and `xo`
    (one store covering the block; every load reads a whole buffer). -/
theorem out_B (c : Dev nD) (i : grid0.Coords) (a1 : Memref sig .tc .vmem S1x512 .i32) (h1 : a1.IsWhole)
    (a2 : Memref sig .tc .vmem S1x512 .f32) (h2 : a2.IsWhole) (a3 : Memref sig .tc .vmem S1x512 .i32) (h3 : a3.IsWhole)
    (a4 : Memref sig .tc .vmem S5120x512 .bf16) (h4 : a4.IsWhole) (a5 : Memref sig .tc .vmem S4096x512 .f32) (h5 : a5.IsWhole)
    (hc : ¬cond0_0 i) (x0 : Vec F S1x512 .i32) (x1 : Vec F S1x512 .f32) (x2 : Vec F S1x512 .i32) (x3 : Vec F S5120x512 .bf16)
    (xo : Vec F S4096x512 .f32) :
    out0_B_4 c i a1 h1 a2 h2 a3 h3 a4 h4 a5 h5 hc x0 x1 x2 x3 xo = k0_pay2 x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S1x512) hz, View.ld_unit_zero (S := S5120x512) hz, View.ld_unit_zero (S := S4096x512) hz]

/-- THE FIRST POINT: the body stores the zero block, reads it back and leaves its arithmetic term of the chunk's blocks
    and the zero block. -/
theorem out_A (c : Dev nD) (i : grid0.Coords) (a1 : Memref sig .tc .vmem S1x512 .i32) (h1 : a1.IsWhole)
    (a2 : Memref sig .tc .vmem S1x512 .f32) (h2 : a2.IsWhole) (a3 : Memref sig .tc .vmem S1x512 .i32) (h3 : a3.IsWhole)
    (a4 : Memref sig .tc .vmem S5120x512 .bf16) (h4 : a4.IsWhole) (a5 : Memref sig .tc .vmem S4096x512 .f32) (h5 : a5.IsWhole)
    (hc : cond0_0 i) (x0 : Vec F S1x512 .i32) (x1 : Vec F S1x512 .f32) (x2 : Vec F S1x512 .i32) (x3 : Vec F S5120x512 .bf16) :
    out0_A_4 c i a1 h1 a2 h2 a3 h3 a4 h4 a5 h5 hc x0 x1 x2 x3 = k0_pay2 x0 x1 x2 x3 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S4096x512) hz, View.readCov_unit_zero (S := S4096x512) _ hz]
  simp only [View.readAt_eq_ld, h1.read_unread, h2.read_unread, h3.read_unread, h4.read_unread,
    View.ld_unit_zero (S := S1x512) hz, View.ld_unit_zero (S := S5120x512) hz, View.ld_unit_zero (S := S4096x512) hz]

/-- The block after point `n`: the body's term iterated over the points so far, from the zero block. -/
def carried (c : Dev nD) : (n : ℕ) → n < cfg0.N → Vec F S4096x512 .f32
  | 0, h => k0_pay2 (iblk m c 0 ⟨0, h⟩) (iblk m c 1 ⟨0, h⟩) (iblk m c 2 ⟨0, h⟩) (iblk m c 3 ⟨0, h⟩) (k0_pay1 (F := F))
  | n + 1, h => k0_pay2 (iblk m c 0 ⟨n + 1, h⟩) (iblk m c 1 ⟨n + 1, h⟩) (iblk m c 2 ⟨n + 1, h⟩) (iblk m c 3 ⟨n + 1, h⟩)
      (carried c n (Nat.lt_of_succ_lt h))

/-- What the output's staging buffer holds after point `n` is that iterate, by induction on the point. -/
theorem outsAt_eq (c : Dev nD) : ∀ (n : ℕ) (h : n < cfg0.N), outsAt0 m c n h = carried m c n h
  | 0, h => (outsAt0_A m c ⟨0, h⟩ rfl).trans (out_A ..)
  | n + 1, h => by
    have hN : cfg0.N = 128 := N_0
    have hB : ¬(⟨n + 1, h⟩ : Fin cfg0.N).val % 128 = 0 := by dsimp only; omega
    rw [outsAt0_B m c ⟨n + 1, h⟩ hB, out_B]
    show k0_pay2 _ _ _ _ (outsAt0 m c n _) = k0_pay2 _ _ _ _ (carried m c n _)
    rw [outsAt_eq c n]

end Cert.KernelIdeal.Acc

end
-- ==== Proof.KFinal.lean ====
/-
  What the kernel's program leaves in its result.

  The output window's block is the whole 4096 × 512 array at block index (0, 0); it is written back once, after the last
  of the 128 points, so the array the region leaves is the block as the last point left it. After the region the host
  regroups its 4096 rows as 8 × 512 and appends it, along the last axis, to the 256 columns of the first argument.
-/
import proofs.«407564_j22058952032948_1_alg».proof.Proof.KAcc
import Idealize.ShloMosaic.Lib.Pipeline.Value
import Idealize.ShloMosaic.Lib.StableHlo.Run
import Idealize.ShloMosaic.Lib.Tactic

noncomputable section

namespace Cert.KernelIdeal.Final

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem h127 : 127 < cfg0.N := by rw [show cfg0.N = 128 from N_0]; decide

/-- The last grid point. -/
abbrev tLast : Fin cfg0.N := ⟨127, h127⟩

/-- The array the region leaves: the block after the last point. -/
abbrev result (c : Dev nD) : Buf (Elt F) ((c : Thread nD τ).loc main_v8) := Acc.carried m c 127 h127

/-- The one write-back, at the last point, writes it: block (0, 0) of the array read through zero offsets is the array. -/
theorem flushed_eq (c : Dev nD) (t : Fin cfg0.N) (hf : (cfg0.win 4).flush t = true) :
    (dats m 0 c).flushed 4 t = ((cfg0.win 4).blk t).view.read (Elt F) (result m c) := by
  have hN : cfg0.N = 128 := N_0
  have h3 : t.val = 127 := by have := (flush0_4 t).mp hf; have := t.isLt; omega
  obtain rfl : t = tLast := Fin.ext h3
  show (cfg0.win 4).cut (grid0.coords tLast) ((dats m 0 c).after 4 tLast) = _
  rw [after0_4, Acc.outsAt_eq]
  have hz' : (fun a => win0_4.index tLast a * main_v8.ty.shape.size a) = fun _ => 0 :=
    funext fun a => by fin_cases a <;> decide +kernel
  exact (Memref.read_access_unit_zero (Elt F) main_v8 hz' (fun a => by rw [congrFun hz' a]; simp) (result m c)).symm

/-- So the array ends holding the block the last point left: that point's write-back covers every element. -/
theorem final_out (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v8).slice (win0_4.rect tLast)).set
      rw [View.set_slice_whole, Rect.mem_set_unit]
      intro a
      have h0 : (i 0 : Nat) < 4096 := (i 0).isLt
      have h1 : (i 1 : Nat) < 512 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 4096 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 512 from by decide +kernel]
        omega⟩

/-- The host's last two operations as one function of the first argument and the 4096 × 512 array. -/
def tail (x0 : FVec F S8x512x256 .f32) (X : FVec F S4096x512 .f32) : FVec F S8x512x768 .f32 :=
  concatenate S8x512x768 2 [⟨S8x512x256, x0⟩, ⟨S8x512x512, shapeCast S8x512x512 X shapeCasts_S4096x512_S8x512x512⟩]
    concatenates_S8x512x256_S8x512x512_S8x512x768_d2

/-- The program's result: that function of the first argument and of what the region left. -/
theorem tail_value (c : Dev nD) :
    Pipeline.afterTail₀ cfgs (dats m) 0 (V0 m) [hostOps1] c main_v10
      = tail (m ((c : Thread nD τ).loc main_arg0)) (result m c) := by
  unfold Pipeline.afterTail₀
  show StableHlo.after hostOps1 _ (Proc.devRef .tc main_v10) = _
  after_results
  have e8 : Pipeline.withArrays (cfgs 0).spec c (V0 m c) (fun w => (dats m 0 c).arrAt w (cfgs 0).N) (Proc.devRef .tc main_v8)
      = result m c :=
    (Pipeline.withArrays_arr spec0 launch0.win.arr_inj c _ _ 4).trans (final_out m c)
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  rw [e8, e0]
  rfl

/-- THE KERNEL PROGRAM'S RUN, READ: every weakly fair execution terminates with the result at `tail` of the first
    argument and the block the last point left, and the arguments unchanged. -/
theorem run : θ_run defs (onTc (τ := τ) (main (F := F))) ⟨m, fun _ => 0, ρ⟩ fun r => ∀ c : Dev nD,
      r.2.mem ((c.tc : Thread nD τ).loc main_v10) = tail (m ((c : Thread nD τ).loc main_arg0)) (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v10 (Pipeline.mem_restRefs_of main_v10 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.KBlocks.lean ====
/-
  The arrays the region finds, and the blocks its windows read.

  Before the region the host forms the flat table row of every entry, `rows · 128 + time`, and lays it, the weights and
  the destination tokens out as one row of 65536; it flattens the table's first two axes (40 × 128 rows become 5120).
  The grid has 128 points; at point `t` the three entry windows hold entries `512 t … 512 t + 511` of their rows, and the
  table window holds the whole table at every point.
-/
import proofs.«407564_j22058952032948_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The arrays at the region's entry -/

/-- The flat table rows, one row of 65536: `rows · 128 + time`, entry by entry. -/
theorem flatRows_eq (c : Dev nD) : (V m c main_v5 : IVec S1x65536 32)
    = shapeCast S1x65536 (addi (muli (m ((c : Thread nD τ).loc main_arg4)) (broadcastInDim S65536 ![] bcast_S_S65536 (constantI S_ 32 128#32)))
        (m ((c : Thread nD τ).loc main_arg5))) shapeCasts_S65536_S1x65536 := by
  show StableHlo.after hostOps0 (fun b => m (c, b)) (Proc.devRef .tc main_v5) = _
  after_results; rfl

/-- The weights as one row of 65536. -/
theorem weightsRow_eq (c : Dev nD) : (V m c main_v6 : FVec F S1x65536 .f32)
    = shapeCast S1x65536 (m ((c : Thread nD τ).loc main_arg2)) shapeCasts_S65536_S1x65536 := by
  show StableHlo.after hostOps0 (fun b => m (c, b)) (Proc.devRef .tc main_v6) = _
  after_results; rfl

/-- The destination tokens as one row of 65536. -/
theorem tokensRow_eq (c : Dev nD) : (V m c main_v7 : IVec S1x65536 32)
    = shapeCast S1x65536 (m ((c : Thread nD τ).loc main_arg3)) shapeCasts_S65536_S1x65536 := by
  show StableHlo.after hostOps0 (fun b => m (c, b)) (Proc.devRef .tc main_v7) = _
  after_results; rfl

/-- The table with its first two axes flattened (and its format changed). -/
theorem flatTable_eq (c : Dev nD) : (V m c main_v4 : FVec F S5120x512 .bf16)
    = truncf .bf16 (shapeCast S5120x512 (m ((c : Thread nD τ).loc main_arg1)) shapeCasts_S40x128x512_S5120x512) bitsLt_bf16_f32 := by
  show StableHlo.after hostOps0 (fun b => m (c, b)) (Proc.devRef .tc main_v4) = _
  after_results; rfl

/-! ## The layouts at an index -/

/-- Row `r` of the flattened table is row `(r / 128, r mod 128)` of the three-axis table. -/
theorem flatten_apply {α : Type} (x : S40x128x512.Idx → α) (r : Fin 5120) (d : Fin 512) :
    shapeCast S5120x512 x shapeCasts_S40x128x512_S5120x512 (ix2 r d)
      = x (ix3 (⟨r.val / 128, by have := r.isLt; omega⟩ : Fin 40) (⟨r.val % 128, Nat.mod_lt _ (by decide)⟩ : Fin 128) d) :=
  shapeCast_apply x _ _ _ (by
    rw [Shape.rowMajor_val_three, Shape.rowMajor_val_two]
    show (r.val / 128 * 128 + r.val % 128) * 512 + d.val = r.val * 512 + d.val
    have := Nat.div_add_mod r.val 128
    omega)

/-! ## The windows' blocks at a point -/

theorem hN : cfg0.N = 128 := N_0

/-- Where the three entry windows sit at point `t`: block row 0, block column `t`. -/
theorem idx_entry0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_entry1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_entry2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
/-- The table window sits at block (0, 0) at every point. -/
theorem idx_table : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Entry `512 t + k` of a row of 65536. -/
abbrev entry (t : Fin cfg0.N) (k : Fin 512) : Fin 65536 :=
  ⟨512 * t.val + k.val, by have := lt_of_lt_of_eq t.isLt hN; have := k.isLt; omega⟩

/-- The flat-row window's block at point `t` holds entries `512 t + k`. -/
theorem rowsBlock_apply (c : Dev nD) (t : Fin cfg0.N) (k : Fin 512) :
    (iblk m c 0 t : IVec S1x512 32) (ix2 0 k) = (V m c main_v5 : IVec S1x65536 32) (ix2 0 (entry t k)) := by
  have hi := idx_entry0 t
  unfold iblk
  rw [View.read_apply]
  show V m c main_v5 _ = V m c main_v5 _
  congr 1
  funext a
  apply Fin.ext
  match a with
  | ⟨0, _⟩ => show win0_0.index t 0 * 1 + 1 * 0 = 0; rw [hi.1]
  | ⟨1, _⟩ => show win0_0.index t 1 * 512 + 1 * k.val = 512 * t.val + k.val; rw [hi.2]; omega

/-- The weight window's block at point `t` holds entries `512 t + k`. -/
theorem weightsBlock_apply (c : Dev nD) (t : Fin cfg0.N) (k : Fin 512) :
    (iblk m c 1 t : FVec F S1x512 .f32) (ix2 0 k) = (V m c main_v6 : FVec F S1x65536 .f32) (ix2 0 (entry t k)) := by
  have hi := idx_entry1 t
  unfold iblk
  rw [View.read_apply]
  show V m c main_v6 _ = V m c main_v6 _
  congr 1
  funext a
  apply Fin.ext
  match a with
  | ⟨0, _⟩ => show win0_1.index t 0 * 1 + 1 * 0 = 0; rw [hi.1]
  | ⟨1, _⟩ => show win0_1.index t 1 * 512 + 1 * k.val = 512 * t.val + k.val; rw [hi.2]; omega

/-- The token window's block at point `t` holds entries `512 t + k`. -/
theorem tokensBlock_apply (c : Dev nD) (t : Fin cfg0.N) (k : Fin 512) :
    (iblk m c 2 t : IVec S1x512 32) (ix2 0 k) = (V m c main_v7 : IVec S1x65536 32) (ix2 0 (entry t k)) := by
  have hi := idx_entry2 t
  unfold iblk
  rw [View.read_apply]
  show V m c main_v7 _ = V m c main_v7 _
  congr 1
  funext a
  apply Fin.ext
  match a with
  | ⟨0, _⟩ => show win0_2.index t 0 * 1 + 1 * 0 = 0; rw [hi.1]
  | ⟨1, _⟩ => show win0_2.index t 1 * 512 + 1 * k.val = 512 * t.val + k.val; rw [hi.2]; omega

/-- The table window's block is the whole flattened table, at every point. -/
theorem tableBlock_apply (c : Dev nD) (t : Fin cfg0.N) (r : Fin 5120) (d : Fin 512) :
    (iblk m c 3 t : FVec F S5120x512 .bf16) (ix2 r d) = (V m c main_v4 : FVec F S5120x512 .bf16) (ix2 r d) := by
  have hi := idx_table t
  unfold iblk
  rw [View.read_apply]
  show V m c main_v4 _ = V m c main_v4 _
  congr 1
  funext a
  apply Fin.ext
  match a with
  | ⟨0, _⟩ => show win0_3.index t 0 * 5120 + 1 * r.val = r.val; rw [hi.1]; omega
  | ⟨1, _⟩ => show win0_3.index t 1 * 512 + 1 * d.val = d.val; rw [hi.2]; omega

end Cert.KernelIdeal.Blocks

end
-- ==== Proof.SegSum.lean ====
/-
  The segment sum both programs compute, and the algebra that brings the kernel's form to it.

  For every destination token `tok` and column `d`:

      out (tok, d) = ∑ over the entries e with seg e = tok of  trace (rows e, time e, d) · w e.

  The kernel reaches it through two one-hot matrix products: entry `e` selects the flat table row `128 · rows e + time e`
  by comparing it with every row number, and token `tok` selects its entries by comparing `tok` with `seg e`. A one-hot
  coefficient is the extended real 1 or 0, and `1 · x = x`, `0 · x = 0`, `0 + x = x` hold for every extended real, so
  a sum against a one-hot row is the selected term, whatever the table holds. With `0 ≤ rows e < 40` and
  `0 ≤ time e < 128` the flat row number `128 · rows e + time e` is below 5120 and does not wrap in 32 bits, so exactly
  one table row is selected, the row `(rows e, time e)` of the three-axis table.
-/
import Idealize.ShloMosaic.PureOps.Ideal
import Idealize.ShloMosaic.Lib.ValueIdx

noncomputable section

namespace Cert.SegSum

open Idealize.ShloMosaic Idealize.ShloMosaic.ValueIdx

/-- A one-hot coefficient as the kernel computes it: the equality test of two words, widened to 32 bits, read as a
    signed integer and converted. -/
def hot (a b : BitVec 32) : EReal := (((BitVec.setWidth 32 (IntOp.cmpi .eq a b)).toInt : ℝ) : EReal)

/-- It is 1 where the words agree and 0 elsewhere. -/
theorem hot_eq (a b : BitVec 32) : hot a b = if a = b then 1 else 0 := by
  unfold hot IntOp.cmpi
  by_cases h : a = b
  · subst h; simp
  · have hb : (a == b) = false := by simpa using h
    simp [hb, h]

/-- Row numbers below `2^32` are told apart by their words. -/
theorem ofNat_inj_of_lt {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- A sum against the one-hot row of `n` is the term at `n`. -/
theorem hot_sum_collapse {N : ℕ} (hN : N ≤ 2 ^ 32) (n : ℕ) (hn : n < N) (f : Fin N → EReal) :
    ∑ r : Fin N, hot (BitVec.ofNat 32 r.val) (BitVec.ofNat 32 n) * f r = f ⟨n, hn⟩ := by
  rw [Finset.sum_eq_single (⟨n, hn⟩ : Fin N)]
  · rw [hot_eq, if_pos rfl, one_mul]
  · intro r _ hr
    rw [hot_eq, if_neg, zero_mul]
    intro h
    exact hr (Fin.ext (ofNat_inj_of_lt (by have := r.isLt; omega) (by omega) h))
  · intro h; exact absurd (Finset.mem_univ _) h

/-- A word whose signed reading lies in `[0, n)`, `n` small, has that unsigned reading. -/
theorem toNat_of_range (x : BitVec 32) (n : ℕ) (hn : n ≤ 2 ^ 31) (h0 : 0 ≤ x.toInt) (h1 : x.toInt < n) :
    x.toNat < n ∧ x.toInt.toNat = x.toNat := by
  rw [BitVec.toInt_eq_toNat_cond] at h0 h1
  have hlt := x.isLt
  rw [BitVec.toInt_eq_toNat_cond]
  split at h0 <;> split <;> omega

/-- The row of the table a row index names, as the host's gather reads it (signed, kept inside the axis). -/
def rowOf (x : BitVec 32) : Fin 40 := ⟨min x.toInt.toNat 39, by omega⟩
/-- The time step a time index names, read the same way. -/
def timeOf (x : BitVec 32) : Fin 128 := ⟨min x.toInt.toNat 127, by omega⟩

/-- THE SEGMENT SUM at token `tok` and column `d`. -/
def segSum (tr : (⟨3, ![40, 128, 512]⟩ : Shape).Idx → EReal) (w : (⟨1, ![65536]⟩ : Shape).Idx → EReal)
    (seg rows time : (⟨1, ![65536]⟩ : Shape).Idx → BitVec 32) (tok : Fin 4096) (d : Fin 512) : EReal :=
  ∑ e : Fin 65536, if seg (ix1 e) = BitVec.ofNat 32 tok.val then
    tr (ix3 (rowOf (rows (ix1 e))) (timeOf (time (ix1 e))) d) * w (ix1 e) else 0

/-- The flat row number of an in-range pair, as a 32-bit word: the kernel's `rows · 128 + time` does not wrap. -/
theorem flat_word (x y : BitVec 32) (hx : x.toNat < 40) (hy : y.toNat < 128) :
    x * 128#32 + y = BitVec.ofNat 32 (x.toNat * 128 + y.toNat) := by
  apply BitVec.eq_of_toNat_eq
  rw [BitVec.toNat_add, BitVec.toNat_mul, BitVec.toNat_ofNat]
  simp only [BitVec.toNat_ofNat, Nat.reducePow, Nat.reduceMod]
  omega

/-- THE KERNEL'S FORM IS THE SEGMENT SUM, where every row index is in `[0, 40)` and every time index in `[0, 128)`:
    the one-hot sum over the 5120 flat rows selects row `128 · rows e + time e`, which is row `(rows e, time e)` of the
    three-axis table; the one-hot coefficient of the token keeps the entries destined for `tok`. -/
theorem kernel_form_eq (tr : (⟨3, ![40, 128, 512]⟩ : Shape).Idx → EReal) (w : (⟨1, ![65536]⟩ : Shape).Idx → EReal)
    (seg rows time : (⟨1, ![65536]⟩ : Shape).Idx → BitVec 32)
    (hrows : ∀ e : Fin 65536, 0 ≤ (rows (ix1 e)).toInt ∧ (rows (ix1 e)).toInt < 40)
    (htime : ∀ e : Fin 65536, 0 ≤ (time (ix1 e)).toInt ∧ (time (ix1 e)).toInt < 128)
    (tok : Fin 4096) (d : Fin 512) :
    (∑ e : Fin 65536, hot (BitVec.ofNat 32 tok.val) (seg (ix1 e))
        * ((∑ r : Fin 5120, hot (BitVec.ofNat 32 r.val) (rows (ix1 e) * 128#32 + time (ix1 e))
              * tr (ix3 (⟨r.val / 128, by have := r.isLt; omega⟩ : Fin 40) (⟨r.val % 128, Nat.mod_lt _ (by decide)⟩ : Fin 128) d))
            * w (ix1 e)))
      = segSum tr w seg rows time tok d := by
  unfold segSum
  refine Finset.sum_congr rfl fun e _ => ?_
  obtain ⟨hr, hr'⟩ := toNat_of_range (rows (ix1 e)) 40 (by decide) (hrows e).1 (hrows e).2
  obtain ⟨ht, ht'⟩ := toNat_of_range (time (ix1 e)) 128 (by decide) (htime e).1 (htime e).2
  rw [flat_word _ _ hr ht,
    hot_sum_collapse (by decide) ((rows (ix1 e)).toNat * 128 + (time (ix1 e)).toNat) (by omega)
      (fun r : Fin 5120 => tr (ix3 (⟨r.val / 128, by have := r.isLt; omega⟩ : Fin 40) (⟨r.val % 128, Nat.mod_lt _ (by decide)⟩ : Fin 128) d))]
  have e1 : (⟨((rows (ix1 e)).toNat * 128 + (time (ix1 e)).toNat) / 128, by omega⟩ : Fin 40) = rowOf (rows (ix1 e)) :=
    Fin.ext (by
      show ((rows (ix1 e)).toNat * 128 + (time (ix1 e)).toNat) / 128 = min (rows (ix1 e)).toInt.toNat 39
      rw [hr']; omega)
  have e2 : (⟨((rows (ix1 e)).toNat * 128 + (time (ix1 e)).toNat) % 128, Nat.mod_lt _ (by decide)⟩ : Fin 128) = timeOf (time (ix1 e)) :=
    Fin.ext (by
      show ((rows (ix1 e)).toNat * 128 + (time (ix1 e)).toNat) % 128 = min (time (ix1 e)).toInt.toNat 127
      rw [ht']; omega)
  dsimp only
  rw [e1, e2, hot_eq]
  by_cases hs : seg (ix1 e) = BitVec.ofNat 32 tok.val
  · rw [if_pos hs.symm, if_pos hs, one_mul]
  · rw [if_neg (fun h => hs h.symm), if_neg hs, zero_mul]

end Cert.SegSum

end
-- ==== Proof.KPay.lean ====
/-
  The body's arithmetic, read at one element over the extended reals.

  At a grid point the body holds a chunk of 512 entries: their flat table rows `idx`, weights `w` and destination
  tokens `seg`, the whole table `tbl` (5120 rows of 512 columns) and the running output `acc` (4096 token rows).
  It forms a one-hot matrix of the rows (entry `k` against every table row `r`), multiplies it into the table, scales
  row `k` by `w k`, forms a second one-hot matrix of the tokens (every token against entry `k`) and adds its product
  with the scaled rows to `acc`. So element `(tok, d)` of what it stores is

      acc (tok, d) + ∑ k, [tok = seg k] · ((∑ r, [r = idx k] · tbl (r, d)) · w k)

  where a bracket is the word comparison widened to a 32-bit integer and converted, i.e. the extended real 1 or 0.
  Changes of float format are the identity here, and a matrix product into a zero accumulator is the plain sum.
-/
import proofs.«407564_j22058952032948_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«407564_j22058952032948_1_alg».proof.Proof.SegSum

noncomputable section

namespace Cert.KernelIdeal.Pay

open Cert.KernelIdeal Cert.KernelIdeal.Gen Idealize.ShloMosaic Idealize.ShloMosaic.ValueIdx
open Cert.SegSum (hot)

/-! ## The two matrix products, each a sum over its one contracted axis -/

theorem lhsA_0 (i : S512x512.Idx) (q : dot_S512x5120_S5120x512_S512x512_1_0_0_1_n_n.contr.Idx) :
    (dot_S512x5120_S5120x512_S512x512_1_0_0_1_n_n.lhsIdx i q 0).val = (i 0).val := by
  unfold DotDims.lhsIdx
  rw [dif_neg (show ¬(0 : Fin S512x5120.rank) ∈ dot_S512x5120_S5120x512_S512x512_1_0_0_1_n_n.lhsBatch by decide),
    dif_pos (show (0 : Fin S512x5120.rank) ∈ dot_S512x5120_S5120x512_S512x512_1_0_0_1_n_n.lhsNonContracting by decide)]
  rfl
theorem lhsA_1 (i : S512x512.Idx) (q : dot_S512x5120_S5120x512_S512x512_1_0_0_1_n_n.contr.Idx) :
    (dot_S512x5120_S5120x512_S512x512_1_0_0_1_n_n.lhsIdx i q 1).val = (q ⟨0, by decide⟩).val :=
  dot_S512x5120_S5120x512_S512x512_1_0_0_1_n_n.lhsIdx_val_of_single rfl i q
theorem rhsA_0 (i : S512x512.Idx) (q : dot_S512x5120_S5120x512_S512x512_1_0_0_1_n_n.contr.Idx) :
    (dot_S512x5120_S5120x512_S512x512_1_0_0_1_n_n.rhsIdx i q 0).val = (q ⟨0, by decide⟩).val :=
  dot_S512x5120_S5120x512_S512x512_1_0_0_1_n_n.rhsIdx_val_of_single rfl i q
theorem rhsA_1 (i : S512x512.Idx) (q : dot_S512x5120_S5120x512_S512x512_1_0_0_1_n_n.contr.Idx) :
    (dot_S512x5120_S5120x512_S512x512_1_0_0_1_n_n.rhsIdx i q 1).val = (i 1).val := by
  unfold DotDims.rhsIdx
  rw [dif_neg (show ¬(1 : Fin S5120x512.rank) ∈ dot_S512x5120_S5120x512_S512x512_1_0_0_1_n_n.rhsBatch by decide),
    dif_pos (show (1 : Fin S5120x512.rank) ∈ dot_S512x5120_S5120x512_S512x512_1_0_0_1_n_n.rhsNonContracting by decide)]
  rfl

/-- The first product (one-hot rows times the table) at `(k, d)`: the sum over the table's rows. -/
theorem gatherProduct_apply (L : FVec Ideal S512x5120 .bf16) (R : FVec Ideal S5120x512 .bf16) (k : Fin 512) (d : Fin 512) :
    matmul dot_S512x5120_S5120x512_S512x512_1_0_0_1_n_n none L R (constant S512x512 .f32 0x00000000#32) (ix2 k d)
      = ∑ r : Fin 5120, L (ix2 k r) * R (ix2 r d) := by
  refine (Ideal.matmul_constant_zero_apply _ none L R _).trans ?_
  rw [← Equiv.sum_comp (contrEquiv1 dot_S512x5120_S5120x512_S512x512_1_0_0_1_n_n 5120 rfl rfl).symm]
  refine Finset.sum_congr rfl fun r _ => ?_
  have hr := contrEquiv1_symm_val dot_S512x5120_S5120x512_S512x512_1_0_0_1_n_n 5120 rfl rfl r
  have el : dot_S512x5120_S5120x512_S512x512_1_0_0_1_n_n.lhsIdx (ix2 k d) ((contrEquiv1 dot_S512x5120_S5120x512_S512x512_1_0_0_1_n_n 5120 rfl rfl).symm r) = ix2 k r :=
    funext fun a => Fin.ext (by
      match a with
      | ⟨0, _⟩ => exact lhsA_0 _ _
      | ⟨1, _⟩ => exact (lhsA_1 _ _).trans hr)
  have er : dot_S512x5120_S5120x512_S512x512_1_0_0_1_n_n.rhsIdx (ix2 k d) ((contrEquiv1 dot_S512x5120_S5120x512_S512x512_1_0_0_1_n_n 5120 rfl rfl).symm r) = ix2 r d :=
    funext fun a => Fin.ext (by
      match a with
      | ⟨0, _⟩ => exact (rhsA_0 _ _).trans hr
      | ⟨1, _⟩ => exact rhsA_1 _ _)
  rw [el, er]

theorem lhsB_0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl
theorem lhsB_1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhsB_0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhsB_1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

/-- The second product (one-hot tokens times the scaled rows) at `(tok, d)`: the sum over the chunk's entries. -/
theorem scatterProduct_apply (L : FVec Ideal S4096x512 .bf16) (R : FVec Ideal S512x512 .bf16) (tok : Fin 4096) (d : Fin 512) :
    matmul dot_S4096x512_S512x512_S4096x512_1_0_0_1_n_n none L R (constant S4096x512 .f32 0x00000000#32) (ix2 tok d)
      = ∑ k : Fin 512, L (ix2 tok k) * R (ix2 k d) := by
  refine (Ideal.matmul_constant_zero_apply _ none L R _).trans ?_
  rw [← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 tok d) ((contrEquiv1 dot_S4096x512_S512x512_S4096x512_1_0_0_1_n_n 512 rfl rfl).symm k) = ix2 tok k :=
    funext fun a => Fin.ext (by
      match a with
      | ⟨0, _⟩ => exact lhsB_0 _ _
      | ⟨1, _⟩ => exact (lhsB_1 _ _).trans hk)
  have er : dot_S4096x512_S512x512_S4096x512_1_0_0_1_n_n.rhsIdx (ix2 tok d) ((contrEquiv1 dot_S4096x512_S512x512_S4096x512_1_0_0_1_n_n 512 rfl rfl).symm k) = ix2 k d :=
    funext fun a => Fin.ext (by
      match a with
      | ⟨0, _⟩ => exact (rhsB_0 _ _).trans hk
      | ⟨1, _⟩ => exact rhsB_1 _ _)
  rw [el, er]

/-! ## The layout steps at an index -/

/-- A vector made a column reads its entry. -/
theorem column_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column broadcast along its rows reads, at `(p, c)`, the column's entry of row `p`. -/
theorem columnBroadcast_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two one-hot matrices at an entry -/

/-- Entry `(k, r)` of the one-hot matrix of table rows: whether row `r` is entry `k`'s flat index. -/
theorem rowsHot_apply (v3 : IVec S1x512 32) (k : Fin 512) (r : Fin 5120) :
    (truncf .bf16 (sitofp (F := Ideal) .f32 (extui 32 (cmpi .eq (iota .tc S512x5120 32 [1] iota_S512x5120_d1_w32)
      (broadcastTo S512x5120 (shapeCast S512x1 (shapeCast S512 v3 shapeCasts_S1x512_S512) shapeCasts_S512_S512x1)
        broadcasts_S512x1_S512x5120)) natLt_1_32)) bitsLt_bf16_f32 : FVec Ideal S512x5120 .bf16) (ix2 k r)
      = hot (BitVec.ofNat 32 r.val) (v3 (ix2 0 k)) := by
  have e : broadcastTo S512x5120 (shapeCast S512x1 (shapeCast S512 v3 shapeCasts_S1x512_S512) shapeCasts_S512_S512x1)
      broadcasts_S512x1_S512x5120 (ix2 k r) = v3 (ix2 0 k) := by
    rw [columnBroadcast_apply, column_apply, shapeCast_1a_a_apply]
  show hot (BitVec.ofNat 32 (0 * 5120 + r.val)) (broadcastTo S512x5120 _ _ (ix2 k r)) = _
  rw [e, Nat.zero_mul, Nat.zero_add]

/-- Entry `(tok, k)` of the one-hot matrix of tokens: whether `tok` is entry `k`'s destination. -/
theorem tokensHot_apply (v7 : IVec S1x512 32) (tok : Fin 4096) (k : Fin 512) :
    (truncf .bf16 (sitofp (F := Ideal) .f32 (extui 32 (cmpi .eq (iota .tc S4096x512 32 [0] iota_S4096x512_d0_w32)
      (broadcastTo S4096x512 (shapeCast S1x512 (shapeCast S512 v7 shapeCasts_S1x512_S512) shapeCasts_S512_S1x512)
        broadcasts_S1x512_S4096x512)) natLt_1_32)) bitsLt_bf16_f32 : FVec Ideal S4096x512 .bf16) (ix2 tok k)
      = hot (BitVec.ofNat 32 tok.val) (v7 (ix2 0 k)) := by
  have e : broadcastTo S4096x512 (shapeCast S1x512 (shapeCast S512 v7 shapeCasts_S1x512_S512) shapeCasts_S512_S1x512)
      broadcasts_S1x512_S4096x512 (ix2 tok k) = v7 (ix2 0 k) := by
    rw [broadcastTo_1b_ab_apply, shapeCast_a_1a_apply, shapeCast_1a_a_apply]
  show hot (BitVec.ofNat 32 (0 * 4096 + tok.val)) (broadcastTo S4096x512 _ _ (ix2 tok k)) = _
  rw [e, Nat.zero_mul, Nat.zero_add]

/-! ## What the body stores, at an element -/

/-- THE STORED VALUE AT `(tok, d)`: the running output there plus, over the chunk's entries destined for `tok`, the
    table row each entry names at column `d`, times the entry's weight. -/
theorem pay2_apply (v3 : IVec S1x512 32) (v5 : FVec Ideal S1x512 .f32) (v7 : IVec S1x512 32) (v16 : FVec Ideal S5120x512 .bf16)
    (v30 : FVec Ideal S4096x512 .f32) (tok : Fin 4096) (d : Fin 512) :
    k0_pay2 (F := Ideal) v3 v5 v7 v16 v30 (ix2 tok d)
      = v30 (ix2 tok d) + ∑ k : Fin 512, hot (BitVec.ofNat 32 tok.val) (v7 (ix2 0 k))
          * ((∑ r : Fin 5120, hot (BitVec.ofNat 32 r.val) (v3 (ix2 0 k)) * v16 (ix2 r d)) * v5 (ix2 0 k)) := by
  unfold k0_pay2
  dsimp only
  refine (addf_apply _ _ _).trans ?_
  rw [shapeCast_self]
  refine congrArg (v30 (ix2 tok d) + ·) ?_
  refine (scatterProduct_apply _ _ tok d).trans ?_
  refine Finset.sum_congr rfl fun k _ => ?_
  rw [tokensHot_apply]
  refine congrArg (hot (BitVec.ofNat 32 tok.val) (v7 (ix2 0 k)) * ·) ?_
  show matmul (F := Ideal) dot_S512x5120_S5120x512_S512x512_1_0_0_1_n_n none _ _ _ (ix2 k d) * broadcastTo S512x512 _ broadcasts_S512x1_S512x512 (ix2 k d) = _
  rw [gatherProduct_apply, columnBroadcast_apply, column_apply, shapeCast_1a_a_apply, shapeCast_self]
  refine congrArg (· * v5 (ix2 0 k)) (Finset.sum_congr rfl fun r _ => ?_)
  rw [rowsHot_apply]

end Cert.KernelIdeal.Pay

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.KSum.lean ====
/-
  The output block after each point, element by element over the extended reals, and the array the region leaves.

  Write `term e` for entry `e`'s contribution to element `(tok, d)`: the one-hot coefficient of `tok` against the
  entry's destination, times the one-hot-selected table row at column `d`, times the entry's weight. Point `t` adds the
  terms of entries `512 t … 512 t + 511` to what the point before left (point 0 to the zero block), so after point `n`
  the element is the sum of the terms of the first `512 (n + 1)` entries, and after the last point of all 65536.
  Reading the region-entry arrays back to the program's arguments and collapsing the one-hot sums (which needs the row
  and time indices in range) gives the segment sum.
-/
import proofs.«407564_j22058952032948_1_alg».proof.Proof.KAcc
import proofs.«407564_j22058952032948_1_alg».proof.Proof.KBlocks
import proofs.«407564_j22058952032948_1_alg».proof.Proof.KPay
import proofs.«407564_j22058952032948_1_alg».proof.Proof.LibBlockSum

noncomputable section

namespace Cert.KernelIdeal.Sum

open Idealize.ShloMosaic Idealize.ShloMosaic.TcCoe Idealize.SL.Sem
open Idealize.ShloMosaic.ValueIdx
open Cert.KernelIdeal Cert.KernelIdeal.Gen
open Cert.SegSum (hot segSum)

variable (m : (ℓ : Loc nD τ sig) → Buf (Elt Ideal) ℓ)

/-- Entry `e`'s contribution to element `(tok, d)`, over the arrays the region finds. -/
def term (c : Dev nD) (tok : Fin 4096) (d : Fin 512) (e : Fin 65536) : EReal :=
  hot (BitVec.ofNat 32 tok.val) ((V m c main_v7 : IVec S1x65536 32) (ix2 0 e))
    * ((∑ r : Fin 5120, hot (BitVec.ofNat 32 r.val) ((V m c main_v5 : IVec S1x65536 32) (ix2 0 e))
          * (V m c main_v4 : FVec Ideal S5120x512 .bf16) (ix2 r d))
        * (V m c main_v6 : FVec Ideal S1x65536 .f32) (ix2 0 e))

/-- The same on every natural, zero past the last entry. -/
def termN (c : Dev nD) (tok : Fin 4096) (d : Fin 512) (i : ℕ) : EReal :=
  if h : i < 65536 then term m c tok d ⟨i, h⟩ else 0

/-- What point `t` adds at `(tok, d)`: the terms of its 512 entries. -/
theorem step_sum (c : Dev nD) (tok : Fin 4096) (d : Fin 512) (t : Fin cfg0.N) :
    (∑ k : Fin 512, hot (BitVec.ofNat 32 tok.val) ((iblk m c 2 t : IVec S1x512 32) (ix2 0 k))
        * ((∑ r : Fin 5120, hot (BitVec.ofNat 32 r.val) ((iblk m c 0 t : IVec S1x512 32) (ix2 0 k))
              * (iblk m c 3 t : FVec Ideal S5120x512 .bf16) (ix2 r d))
            * (iblk m c 1 t : FVec Ideal S1x512 .f32) (ix2 0 k)))
      = ∑ k : Fin 512, termN m c tok d (512 * t.val + k.val) := by
  refine Finset.sum_congr rfl fun k _ => ?_
  have hlt : 512 * t.val + k.val < 65536 := (Blocks.entry t k).isLt
  unfold termN
  rw [dif_pos hlt]
  unfold term
  rw [Blocks.tokensBlock_apply, Blocks.rowsBlock_apply, Blocks.weightsBlock_apply]
  refine congrArg (fun s => hot _ _ * (s * _)) (Finset.sum_congr rfl fun r _ => ?_)
  rw [Blocks.tableBlock_apply]

/-- AFTER POINT `n` element `(tok, d)` of the block is the sum of the terms of the first `512 (n + 1)` entries. -/
theorem carried_apply (c : Dev nD) (tok : Fin 4096) (d : Fin 512) :
    ∀ (n : ℕ) (h : n < cfg0.N), Acc.carried m c n h (ix2 tok d) = ∑ i ∈ Finset.range (512 * (n + 1)), termN m c tok d i :=
  Cert.LibBlockSum.fold_eq_prefix (termN m c tok d) 512 (fun n h => Acc.carried m c n h (ix2 tok d))
    (fun h => by
      show k0_pay2 (F := Ideal) (iblk m c 0 ⟨0, h⟩) (iblk m c 1 ⟨0, h⟩) (iblk m c 2 ⟨0, h⟩) (iblk m c 3 ⟨0, h⟩) (k0_pay1 (F := Ideal)) (ix2 tok d) = _
      refine (Pay.pay2_apply _ _ _ _ _ tok d).trans ?_
      show Ideal.ofBits .f32 0x00000000#32 + _ = _
      rw [Ideal.ofBits_zero_f32]
      exact congrArg (0 + ·) (step_sum m c tok d ⟨0, h⟩))
    (fun n h => by
      show k0_pay2 (F := Ideal) (iblk m c 0 ⟨n + 1, h⟩) (iblk m c 1 ⟨n + 1, h⟩) (iblk m c 2 ⟨n + 1, h⟩) (iblk m c 3 ⟨n + 1, h⟩)
        (Acc.carried m c n (Nat.lt_of_succ_lt h)) (ix2 tok d) = _
      refine (Pay.pay2_apply _ _ _ _ _ tok d).trans ?_
      exact congrArg (Acc.carried m c n (Nat.lt_of_succ_lt h) (ix2 tok d) + ·) (step_sum m c tok d ⟨n + 1, h⟩))

theorem h127 : 127 < cfg0.N := by rw [show cfg0.N = 128 from N_0]; decide

/-- After the last point: the sum over all 65536 entries. -/
theorem last_apply (c : Dev nD) (tok : Fin 4096) (d : Fin 512) :
    Acc.carried m c 127 h127 (ix2 tok d) = ∑ e : Fin 65536, term m c tok d e := by
  rw [carried_apply m c tok d 127 h127, ← Fin.sum_univ_eq_sum_range (fun i => termN m c tok d i) (512 * (127 + 1))]
  show ∑ e : Fin 65536, termN m c tok d e.val = _
  refine Finset.sum_congr rfl fun e _ => ?_
  unfold termN
  rw [dif_pos e.isLt]

/-- The program's arguments on core `c`, each at its literal type. -/
abbrev traceArg (c : Dev nD) : FVec Ideal S40x128x512 .f32 := m ((c : Thread nD τ).loc main_arg1)
abbrev weightsArg (c : Dev nD) : FVec Ideal S65536 .f32 := m ((c : Thread nD τ).loc main_arg2)
abbrev tokensArg (c : Dev nD) : IVec S65536 32 := m ((c : Thread nD τ).loc main_arg3)
abbrev rowsArg (c : Dev nD) : IVec S65536 32 := m ((c : Thread nD τ).loc main_arg4)
abbrev timeArg (c : Dev nD) : IVec S65536 32 := m ((c : Thread nD τ).loc main_arg5)

/-- Entry `e`'s term over the program's arguments. -/
theorem term_eq (c : Dev nD) (tok : Fin 4096) (d : Fin 512) (e : Fin 65536) :
    term m c tok d e
      = hot (BitVec.ofNat 32 tok.val) (tokensArg m c (ix1 e))
        * ((∑ r : Fin 5120, hot (BitVec.ofNat 32 r.val) (rowsArg m c (ix1 e) * 128#32 + timeArg m c (ix1 e))
              * traceArg m c (ix3 (⟨r.val / 128, by have := r.isLt; omega⟩ : Fin 40) (⟨r.val % 128, Nat.mod_lt _ (by decide)⟩ : Fin 128) d))
            * weightsArg m c (ix1 e)) := by
  have e7 : (V m c main_v7 : IVec S1x65536 32) (ix2 0 e) = tokensArg m c (ix1 e) := by
    rw [Blocks.tokensRow_eq]
    exact shapeCast_a_1a_apply _ _ _ _
  have e6 : (V m c main_v6 : FVec Ideal S1x65536 .f32) (ix2 0 e) = weightsArg m c (ix1 e) := by
    rw [Blocks.weightsRow_eq]
    exact shapeCast_a_1a_apply _ _ _ _
  have e5 : (V m c main_v5 : IVec S1x65536 32) (ix2 0 e) = rowsArg m c (ix1 e) * 128#32 + timeArg m c (ix1 e) := by
    rw [Blocks.flatRows_eq]
    exact (shapeCast_a_1a_apply _ _ _ _).trans rfl
  have e4 : ∀ r : Fin 5120, (V m c main_v4 : FVec Ideal S5120x512 .bf16) (ix2 r d)
      = traceArg m c (ix3 (⟨r.val / 128, by have := r.isLt; omega⟩ : Fin 40) (⟨r.val % 128, Nat.mod_lt _ (by decide)⟩ : Fin 128) d) := fun r => by
    rw [Blocks.flatTable_eq]
    exact Blocks.flatten_apply (traceArg m c) r d
  unfold term
  rw [e7, e6, e5]
  simp only [e4]

/-- THE ARRAY THE REGION LEAVES IS THE SEGMENT SUM, where the row and time indices are in range. -/
theorem last_eq_segSum (c : Dev nD)
    (hrows : ∀ e : Fin 65536, 0 ≤ (rowsArg m c (ix1 e)).toInt ∧ (rowsArg m c (ix1 e)).toInt < 40)
    (htime : ∀ e : Fin 65536, 0 ≤ (timeArg m c (ix1 e)).toInt ∧ (timeArg m c (ix1 e)).toInt < 128)
    (tok : Fin 4096) (d : Fin 512) :
    Acc.carried m c 127 h127 (ix2 tok d)
      = segSum (traceArg m c) (weightsArg m c) (tokensArg m c) (rowsArg m c) (timeArg m c) tok d := by
  rw [last_apply]
  simp only [term_eq]
  exact Cert.SegSum.kernel_form_eq (traceArg m c) (weightsArg m c) (tokensArg m c) (rowsArg m c) (timeArg m c) hrows htime tok d

end Cert.KernelIdeal.Sum

end
-- ==== Proof.RefOps.lean ====
/-
  The reference's three index-driven operations, each read at one element.

  The gather reads, for entry `e` and column `d`, the table at the row and time step the entry's index pair names —
  each read as a signed integer and kept inside its axis —, column `d`. The index pair is the two index columns side by
  side. The accumulating scatter adds to element `(tok, d)` every update `(e, d)` whose scatter index, read as a signed
  integer and not clamped, is `tok`; an update whose index falls outside the 4096 rows adds nowhere.
-/
import proofs.«407564_j22058952032948_1_alg».proof.Proof.Gen.ReferenceIdeal
import Idealize.ShloMosaic.PureOps.Ideal
import Idealize.ShloMosaic.Lib.Pipeline.Value
import Idealize.ShloMosaic.Lib.ValueIdx
import proofs.«407564_j22058952032948_1_alg».proof.Proof.SegSum

noncomputable section

namespace Cert.ReferenceIdeal.Ops

open Idealize.ShloMosaic Idealize.ShloMosaic.ValueIdx
open Cert.ReferenceIdeal Cert.ReferenceIdeal.Gen
open Cert.SegSum (rowOf timeOf)

/-! ## The gather -/

/-- Operand axis 0 (the table's row): the entry's first index, read signed and kept below 40. -/
theorem gatherRow (idx : IVec S65536x2 32) (e : Fin 65536) (d : Fin 512) :
    (gather_S40x128x512_S65536x2_S65536x512_1_01_n_n_01_1_11512.operandIdx (ix2 e d) idx 0).val = min (idx (ix2 e (0 : Fin 2))).toInt.toNat 39 := by
  show gather_S40x128x512_S65536x2_S65536x512_1_01_n_n_01_1_11512.start (ix2 e d) idx 0 + gather_S40x128x512_S65536x2_S65536x512_1_01_n_n_01_1_11512.batchCoord (ix2 e d) 0 + gather_S40x128x512_S65536x2_S65536x512_1_01_n_n_01_1_11512.offCoord (ix2 e d) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S40x128x512.rank) ∈ gather_S40x128x512_S65536x2_S65536x512_1_01_n_n_01_1_11512.startIndexMap by decide)]
  have hsi : gather_S40x128x512_S65536x2_S65536x512_1_01_n_n_01_1_11512.siIdx (ix2 e d) ⟨List.idxOf (0 : Fin S40x128x512.rank) gather_S40x128x512_S65536x2_S65536x512_1_01_n_n_01_1_11512.startIndexMap,
      List.idxOf_lt_length_iff.2 (by decide)⟩ = ix2 e (0 : Fin 2) := by
    funext b; refine Fin.ext ?_
    match b with
    | ⟨0, _⟩ => rfl
    | ⟨1, _⟩ => rfl
  rw [hsi]
  rfl

/-- Operand axis 1 (the time step): the entry's second index, read signed and kept below 128. -/
theorem gatherTime (idx : IVec S65536x2 32) (e : Fin 65536) (d : Fin 512) :
    (gather_S40x128x512_S65536x2_S65536x512_1_01_n_n_01_1_11512.operandIdx (ix2 e d) idx 1).val = min (idx (ix2 e (1 : Fin 2))).toInt.toNat 127 := by
  show gather_S40x128x512_S65536x2_S65536x512_1_01_n_n_01_1_11512.start (ix2 e d) idx 1 + gather_S40x128x512_S65536x2_S65536x512_1_01_n_n_01_1_11512.batchCoord (ix2 e d) 1 + gather_S40x128x512_S65536x2_S65536x512_1_01_n_n_01_1_11512.offCoord (ix2 e d) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S40x128x512.rank) ∈ gather_S40x128x512_S65536x2_S65536x512_1_01_n_n_01_1_11512.startIndexMap by decide)]
  have hsi : gather_S40x128x512_S65536x2_S65536x512_1_01_n_n_01_1_11512.siIdx (ix2 e d) ⟨List.idxOf (1 : Fin S40x128x512.rank) gather_S40x128x512_S65536x2_S65536x512_1_01_n_n_01_1_11512.startIndexMap,
      List.idxOf_lt_length_iff.2 (by decide)⟩ = ix2 e (1 : Fin 2) := by
    funext b; refine Fin.ext ?_
    match b with
    | ⟨0, _⟩ => rfl
    | ⟨1, _⟩ => rfl
  rw [hsi]
  rfl

/-- Operand axis 2 (the column): the result's column. -/
theorem gatherCol (idx : IVec S65536x2 32) (e : Fin 65536) (d : Fin 512) :
    (gather_S40x128x512_S65536x2_S65536x512_1_01_n_n_01_1_11512.operandIdx (ix2 e d) idx 2).val = d.val := by
  show gather_S40x128x512_S65536x2_S65536x512_1_01_n_n_01_1_11512.start (ix2 e d) idx 2 + gather_S40x128x512_S65536x2_S65536x512_1_01_n_n_01_1_11512.batchCoord (ix2 e d) 2 + gather_S40x128x512_S65536x2_S65536x512_1_01_n_n_01_1_11512.offCoord (ix2 e d) 2 = _
  rw [GatherDims.batchCoord_eq_zero _ _ _ List.not_mem_nil]
  unfold GatherDims.start
  rw [dif_neg (show ¬(2 : Fin S40x128x512.rank) ∈ gather_S40x128x512_S65536x2_S65536x512_1_01_n_n_01_1_11512.startIndexMap by decide)]
  unfold GatherDims.offCoord
  rw [dif_pos (show (2 : Fin S40x128x512.rank) ∈ gather_S40x128x512_S65536x2_S65536x512_1_01_n_n_01_1_11512.sKept by decide)]
  simp only [Nat.zero_add, Nat.add_zero]
  rfl

/-- THE GATHER AT `(e, d)`: the table at the entry's row and time step, each read signed and kept inside its axis. -/
theorem gather_apply {α : Type} (x : S40x128x512.Idx → α) (idx : IVec S65536x2 32) (e : Fin 65536) (d : Fin 512) :
    Host.gather gather_S40x128x512_S65536x2_S65536x512_1_01_n_n_01_1_11512 x idx (ix2 e d)
      = x (ix3 (rowOf (idx (ix2 e (0 : Fin 2)))) (timeOf (idx (ix2 e (1 : Fin 2)))) d) := by
  unfold Host.gather
  congr 1
  funext a
  refine Fin.ext ?_
  match a with
  | ⟨0, _⟩ => exact gatherRow idx e d
  | ⟨1, _⟩ => exact gatherTime idx e d
  | ⟨2, _⟩ => exact gatherCol idx e d

/-! ## The index pair -/

/-- Column 0 of the index pair is the row-index column. -/
theorem pair_apply0 (a b : IVec S65536x1 32) (e : Fin 65536) :
    concatenate S65536x2 1 [⟨S65536x1, a⟩, ⟨S65536x1, b⟩] concatenates_S65536x1_S65536x1_S65536x2_d1 (ix2 e (0 : Fin 2))
      = a (ix2 e (0 : Fin 1)) :=
  concatenate_apply_piece 1 [⟨S65536x1, a⟩, ⟨S65536x1, b⟩] concatenates_S65536x1_S65536x1_S65536x2_d1 (ix2 e (0 : Fin 2)) 0 (Nat.zero_lt_succ 1) S65536x1 a rfl rfl 0 rfl (ix2 e (0 : Fin 1))
    (fun bb hb => by
      match bb with
      | ⟨0, _⟩ => rfl
      | ⟨1, _⟩ => exact absurd rfl hb)
    rfl

/-- Column 1 of the index pair is the time-index column. -/
theorem pair_apply1 (a b : IVec S65536x1 32) (e : Fin 65536) :
    concatenate S65536x2 1 [⟨S65536x1, a⟩, ⟨S65536x1, b⟩] concatenates_S65536x1_S65536x1_S65536x2_d1 (ix2 e (1 : Fin 2))
      = b (ix2 e (0 : Fin 1)) :=
  concatenate_apply_piece 1 [⟨S65536x1, a⟩, ⟨S65536x1, b⟩] concatenates_S65536x1_S65536x1_S65536x2_d1 (ix2 e (1 : Fin 2)) 1 (Nat.lt_succ_self 1) S65536x1 b rfl rfl 1 rfl (ix2 e (0 : Fin 1))
    (fun bb hb => by
      match bb with
      | ⟨0, _⟩ => rfl
      | ⟨1, _⟩ => exact absurd rfl hb)
    rfl

/-! ## The accumulating scatter -/

theorem start0 (idx : IVec S65536x1 32) (e : Fin 65536) (d' : Fin 512) :
    scatter_S4096x512_S65536x1_S65536x512_1_0_0_1.start (ix2 e d') idx 0 = (idx (ix2 e (0 : Fin 1))).toInt := by
  unfold ScatterDims.start
  rw [dif_pos (show (0 : Fin S4096x512.rank) ∈ scatter_S4096x512_S65536x1_S65536x512_1_0_0_1.scatterDimsToOperandDims by decide)]
  have hsi : scatter_S4096x512_S65536x1_S65536x512_1_0_0_1.siIdx (ix2 e d') ⟨List.idxOf (0 : Fin S4096x512.rank) scatter_S4096x512_S65536x1_S65536x512_1_0_0_1.scatterDimsToOperandDims,
      List.idxOf_lt_length_iff.2 (by decide)⟩ = ix2 e (0 : Fin 1) := by
    funext b; refine Fin.ext ?_
    match b with
    | ⟨0, _⟩ => rfl
    | ⟨1, _⟩ => rfl
  rw [hsi]

theorem start1 (idx : IVec S65536x1 32) (e : Fin 65536) (d' : Fin 512) :
    scatter_S4096x512_S65536x1_S65536x512_1_0_0_1.start (ix2 e d') idx 1 = 0 := by
  unfold ScatterDims.start
  rw [dif_neg (show ¬(1 : Fin S4096x512.rank) ∈ scatter_S4096x512_S65536x1_S65536x512_1_0_0_1.scatterDimsToOperandDims by decide)]

theorem window0 (e : Fin 65536) (d' : Fin 512) : scatter_S4096x512_S65536x1_S65536x512_1_0_0_1.window (ix2 e d') 0 = 0 := by
  unfold ScatterDims.window
  rw [dif_neg (show ¬(0 : Fin S4096x512.rank) ∈ scatter_S4096x512_S65536x1_S65536x512_1_0_0_1.sKept by decide)]

theorem window1 (e : Fin 65536) (d' : Fin 512) : scatter_S4096x512_S65536x1_S65536x512_1_0_0_1.window (ix2 e d') 1 = d'.val := by
  unfold ScatterDims.window
  rw [dif_pos (show (1 : Fin S4096x512.rank) ∈ scatter_S4096x512_S65536x1_S65536x512_1_0_0_1.sKept by decide)]
  rfl

/-- Update `(e, d')` lands on element `(tok, d)` exactly when the entry's scatter index reads `tok` and `d' = d`. -/
theorem lands_iff (idx : IVec S65536x1 32) (e : Fin 65536) (d' : Fin 512) (tok : Fin 4096) (d : Fin 512) :
    scatter_S4096x512_S65536x1_S65536x512_1_0_0_1.resultIdx? (ix2 e d') idx = some (ix2 tok d) ↔ (idx (ix2 e (0 : Fin 1))).toInt = (tok.val : ℤ) ∧ d' = d := by
  have s0 := start0 idx e d'
  have s1 := start1 idx e d'
  have w0 := window0 e d'
  have w1 := window1 e d'
  unfold ScatterDims.resultIdx?
  split
  · next h =>
    rw [Option.some.injEq]
    constructor
    · intro hh
      have h0 := congrArg (fun f => (f 0).val) hh
      have h1 := congrArg (fun f => (f 1).val) hh
      have p0 := (h 0).1
      simp only [s0, w0, s1, w1] at h0 h1 p0
      refine ⟨?_, Fin.ext ?_⟩
      · have : ((idx (ix2 e (0 : Fin 1))).toInt + ((0 : ℕ) : ℤ)).toNat = tok.val := h0
        omega
      · have : (((0 : ℤ)) + ((d'.val : ℕ) : ℤ)).toNat = d.val := h1
        omega
    · rintro ⟨ht, rfl⟩
      funext a
      refine Fin.ext ?_
      match a with
      | ⟨0, _⟩ =>
        show (scatter_S4096x512_S65536x1_S65536x512_1_0_0_1.start (ix2 e d') idx 0 + ((scatter_S4096x512_S65536x1_S65536x512_1_0_0_1.window (ix2 e d') 0 : ℕ) : ℤ)).toNat = tok.val
        rw [s0, w0, ht]; simp
      | ⟨1, _⟩ =>
        show (scatter_S4096x512_S65536x1_S65536x512_1_0_0_1.start (ix2 e d') idx 1 + ((scatter_S4096x512_S65536x1_S65536x512_1_0_0_1.window (ix2 e d') 1 : ℕ) : ℤ)).toNat = d'.val
        rw [s1, w1]; simp
  · next h =>
    constructor
    · intro hh; exact absurd hh (by simp)
    · rintro ⟨ht, rfl⟩
      exfalso; apply h
      intro a
      match a with
      | ⟨0, _⟩ =>
        show 0 ≤ scatter_S4096x512_S65536x1_S65536x512_1_0_0_1.start (ix2 e d') idx 0 + ((scatter_S4096x512_S65536x1_S65536x512_1_0_0_1.window (ix2 e d') 0 : ℕ) : ℤ)
          ∧ scatter_S4096x512_S65536x1_S65536x512_1_0_0_1.start (ix2 e d') idx 0 + ((scatter_S4096x512_S65536x1_S65536x512_1_0_0_1.window (ix2 e d') 0 : ℕ) : ℤ) < ((4096 : ℕ) : ℤ)
        rw [s0, w0, ht]; have := tok.isLt; omega
      | ⟨1, _⟩ =>
        show 0 ≤ scatter_S4096x512_S65536x1_S65536x512_1_0_0_1.start (ix2 e d') idx 1 + ((scatter_S4096x512_S65536x1_S65536x512_1_0_0_1.window (ix2 e d') 1 : ℕ) : ℤ)
          ∧ scatter_S4096x512_S65536x1_S65536x512_1_0_0_1.start (ix2 e d') idx 1 + ((scatter_S4096x512_S65536x1_S65536x512_1_0_0_1.window (ix2 e d') 1 : ℕ) : ℤ) < ((512 : ℕ) : ℤ)
        rw [s1, w1]; have := d'.isLt; omega

/-- THE SCATTER AT `(tok, d)`: what was there plus the updates `(e, d)` of the entries whose index reads `tok`. -/
theorem scatterAdd_apply (x : FVec Ideal S4096x512 .f32) (idx : IVec S65536x1 32) (upd : FVec Ideal S65536x512 .f32)
    (tok : Fin 4096) (d : Fin 512) :
    Host.scatterAdd (F := Ideal) scatter_S4096x512_S65536x1_S65536x512_1_0_0_1 x idx upd (ix2 tok d)
      = x (ix2 tok d) + ∑ e : Fin 65536, if (idx (ix2 e (0 : Fin 1))).toInt = (tok.val : ℤ) then upd (ix2 e d) else 0 := by
  show Ideal.hostScatterAdd scatter_S4096x512_S65536x1_S65536x512_1_0_0_1 x idx upd (ix2 tok d) = _
  show x (ix2 tok d) + ∑ j ∈ Finset.univ.filter (fun j : S65536x512.Idx => scatter_S4096x512_S65536x1_S65536x512_1_0_0_1.resultIdx? j idx = some (ix2 tok d)), upd j = _
  refine congrArg (x (ix2 tok d) + ·) ?_
  rw [Finset.sum_filter, sum_idx2]
  refine Finset.sum_congr rfl fun e _ => ?_
  simp only [lands_iff]
  by_cases hs : (idx (ix2 e (0 : Fin 1))).toInt = (tok.val : ℤ)
  · simp only [hs, true_and]
    rw [Finset.sum_ite_eq' Finset.univ d (fun d' => upd (ix2 e d'))]
    simp
  · simp only [hs, false_and, if_false, Finset.sum_const_zero]

end Cert.ReferenceIdeal.Ops

end
-- ==== Proof.RefValue.lean ====
/-
  The reference's 4096 × 512 array is the segment sum, where the row and time indices are in range.

  The reference first wraps a negative row or time index once (adding 40 or 128); a non-negative index is left as it
  is. It pairs the two index columns, gathers the table at each pair, scales entry `e`'s row by `w e`, and accumulates
  the scaled rows into a zero array at the rows the destination tokens name. At `(tok, d)` that is zero plus the sum,
  over the entries whose token reads `tok`, of the table at the entry's row and time step, column `d`, times `w e`.
-/
import proofs.«407564_j22058952032948_1_alg».proof.Proof.Gen.ReferenceIdeal.Read
import proofs.«407564_j22058952032948_1_alg».proof.Proof.RefOps
import proofs.«407564_j22058952032948_1_alg».proof.Proof.SegSum
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.ReferenceIdeal.Ops
open Cert.SegSum (segSum rowOf timeOf)

/-- A word reads as the token `tok` (signed) exactly when it is `tok`'s word. -/
theorem toInt_eq_iff (x : BitVec 32) (tok : Fin 4096) : x.toInt = (tok.val : ℤ) ↔ x = BitVec.ofNat 32 tok.val := by
  have htok := tok.isLt
  constructor
  · intro h
    have hx := x.isLt
    rw [BitVec.toInt_eq_toNat_cond] at h
    apply BitVec.eq_of_toNat_eq
    rw [BitVec.toNat_ofNat, Nat.mod_eq_of_lt (by omega)]
    split at h <;> omega
  · rintro rfl
    rw [BitVec.toInt_eq_toNat_cond, BitVec.toNat_ofNat, Nat.mod_eq_of_lt (by omega)]
    split <;> omega

/-- The wrap of negative indices leaves a non-negative index alone. -/
theorem wrap_eq (x n : BitVec 32) (h0 : 0 ≤ x.toInt) : Scalar.select (IntOp.cmpi .slt x 0#32) (IntOp.addi x n) x = x := by
  have hne : ¬IntOp.cmpi .slt x 0#32 = 1#1 := fun h => by
    have := IntOp.cmpi_slt.1 h
    rw [BitVec.toInt_zero] at this
    omega
  unfold Scalar.select
  exact if_neg hne

/-- The row-index column at entry `e`. -/
theorem rowColumn_apply (x4 : IVec S65536 32) (e : Fin 65536) (h0 : 0 ≤ (x4 (ix1 e)).toInt) :
    val_main_v10 (F := Ideal) x4 (ix2 e (0 : Fin 1)) = x4 (ix1 e) := by
  have hi : idx_main_v10 (ix2 e (0 : Fin 1)) = ix1 e := funext fun a => Fin.ext (by match a with | ⟨0, _⟩ => rfl)
  rw [val_main_v10_apply, hi, val_main_v4_apply, val_main_v1_apply, val_main_v3_apply, val_main_v0_apply, val_main_c_apply]
  exact wrap_eq _ _ h0

/-- The time-index column at entry `e`. -/
theorem timeColumn_apply (x5 : IVec S65536 32) (e : Fin 65536) (h0 : 0 ≤ (x5 (ix1 e)).toInt) :
    val_main_v11 (F := Ideal) x5 (ix2 e (0 : Fin 1)) = x5 (ix1 e) := by
  have hi : idx_main_v11 (ix2 e (0 : Fin 1)) = ix1 e := funext fun a => Fin.ext (by match a with | ⟨0, _⟩ => rfl)
  rw [val_main_v11_apply, hi, val_main_v9_apply, val_main_v6_apply, val_main_v8_apply, val_main_v5_apply, val_main_c_1_apply]
  exact wrap_eq _ _ h0

/-- THE REFERENCE'S ARRAY AT `(tok, d)` IS THE SEGMENT SUM, where the row and time indices are non-negative (the upper
    bounds are not needed on this side: the gather keeps an index inside its axis by itself). -/
theorem refArray_apply (x1 : FVec Ideal S40x128x512 .f32) (x2 : FVec Ideal S65536 .f32) (x3 x4 x5 : IVec S65536 32)
    (hrows : ∀ e : Fin 65536, 0 ≤ (x4 (ix1 e)).toInt) (htime : ∀ e : Fin 65536, 0 ≤ (x5 (ix1 e)).toInt)
    (tok : Fin 4096) (d : Fin 512) :
    val_main_v19 (F := Ideal) x1 x2 x3 x4 x5 (ix2 tok d) = segSum x1 x2 x3 x4 x5 tok d := by
  unfold val_main_v19
  rw [scatterAdd_apply, val_main_v17_apply, val_main_cst_apply]
  show Ideal.ofBits .f32 0x00000000#32 + _ = _
  rw [Ideal.ofBits_zero_f32, zero_add]
  unfold segSum
  refine Finset.sum_congr rfl fun e _ => ?_
  have e18 : val_main_v18 (F := Ideal) x3 (ix2 e (0 : Fin 1)) = x3 (ix1 e) := by
    rw [val_main_v18_apply]
    exact congrArg x3 (funext fun a => Fin.ext (by match a with | ⟨0, _⟩ => rfl))
  have e15 : val_main_v15 (F := Ideal) x2 (ix2 e d) = x2 (ix1 e) := by
    rw [val_main_v15_apply, val_main_v14_apply]
    exact congrArg x2 (funext fun a => Fin.ext (by match a with | ⟨0, _⟩ => rfl))
  have e13 : val_main_v13 (F := Ideal) x1 x4 x5 (ix2 e d) = x1 (ix3 (rowOf (x4 (ix1 e))) (timeOf (x5 (ix1 e))) d) := by
    unfold val_main_v13 val_main_v12
    rw [gather_apply, pair_apply0, pair_apply1, rowColumn_apply x4 e (hrows e), timeColumn_apply x5 e (htime e)]
  have e16 : val_main_v16 (F := Ideal) x1 x2 x4 x5 (ix2 e d)
      = x1 (ix3 (rowOf (x4 (ix1 e))) (timeOf (x5 (ix1 e))) d) * x2 (ix1 e) := by
    rw [val_main_v16_apply, e13, e15]
    rfl
  rw [e18, e16]
  by_cases hs : x3 (ix1 e) = BitVec.ofNat 32 tok.val
  · rw [if_pos hs, if_pos ((toInt_eq_iff _ tok).2 hs)]
  · rw [if_neg hs, if_neg (fun h => hs ((toInt_eq_iff _ tok).1 h))]

end Cert.ReferenceIdeal.RefValue

end
-- ==== Proof.PreRanges.lean ====
/-
  What the precondition says of the two index inputs.

  The precondition is one bit: the conjunction of five `all`s, three saying the float inputs are finite and two saying
  that every row index lies in `[0, 40)` and every time index in `[0, 128)` (signed comparisons). An `all` is a reduction
  by `and` from 1, so where the bit is 1 each of its elements is 1, and a signed comparison that is 1 is the inequality
  between the signed readings.
-/
import proofs.«407564_j22058952032948_1_alg».proof.Defs
import proofs.«407564_j22058952032948_1_alg».proof.Proof.Gen.Pre_finite_inputs
import Idealize.ShloMosaic.Lib.ReduceAll
import Idealize.ShloMosaic.Lib.ValueIdx

noncomputable section

namespace Cert.PreRanges

open Idealize.ShloMosaic Idealize.ShloMosaic.ValueIdx
open Cert.Pre_finite_inputs

instance : Subsingleton S_.Idx := ⟨fun a b => funext fun d => d.elim0⟩

variable [Cert.Pre_finite_inputs.Facts]
open Cert.Pre_finite_inputs.Facts

/-- Where the precondition's bit is 1, entry `e`'s row index reads in `[0, 40)` and its time index in `[0, 128)`. -/
theorem ranges_of_fn {F : FTy → Type} [FloatOps F] (a0 : FVec F S8x512x256 .f32) (a1 : FVec F S40x128x512 .f32)
    (a2 : FVec F S65536 .f32) (a3 a4 a5 : IVec S65536 32) (h : fn (F := F) a0 a1 a2 a3 a4 a5 = fun _ => 1#1) (e : Fin 65536) :
    (0 ≤ (a4 (ix1 e)).toInt ∧ (a4 (ix1 e)).toInt < 40) ∧ (0 ≤ (a5 (ix1 e)).toInt ∧ (a5 (ix1 e)).toInt < 128) := by
  have h0 := congrFun h ix0
  unfold fn at h0
  dsimp only at h0
  unfold fn_part1 at h0
  dsimp only at h0
  obtain ⟨h20, h26⟩ := IntOp.andi_eq_one.1 h0
  obtain ⟨-, h19⟩ := IntOp.andi_eq_one.1 h20
  have r4 := Host.reduce_andi_all _ _ _ _ ix0 h19 (ix1 e)
  have r5 := Host.reduce_andi_all _ _ _ _ ix0 h26 (ix1 e)
  obtain ⟨r4a, r4b⟩ := IntOp.andi_eq_one.1 r4
  obtain ⟨r5a, r5b⟩ := IntOp.andi_eq_one.1 r5
  have q4a := IntOp.cmpi_sge.1 r4a
  have q4b := IntOp.cmpi_slt.1 r4b
  have q5a := IntOp.cmpi_sge.1 r5a
  have q5b := IntOp.cmpi_slt.1 r5b
  exact ⟨⟨q4a, q4b⟩, ⟨q5a, q5b⟩⟩

end Cert.PreRanges

end
-- ==== Proof.lean ====
/-
  Both programs compute, for each of the 4096 tokens, the weighted sum of the trace-table rows of the token's entries,
  and append it to the token's 256 program-embedding columns:

      result (b, t, 256 + d) = ∑ over entries e with seg e = 512 b + t of  trace (rows e, time e, d) · w e,
      result (b, t, j) = inp (b, t, j) for j < 256.

  The reference gathers the rows and accumulates them with a scatter. The kernel walks the 65536 entries in 128 chunks of
  512; per chunk it selects the table rows by a one-hot matrix product against the flattened table (row
  `128 · rows e + time e` of 5120), scales them by the weights, and adds them to the carried 4096 × 512 output by a
  second one-hot product over the tokens. Over the extended reals a one-hot product is exact selection, the format
  changes are the identity and a sum may be taken in any order and grouping, so the two agree wherever the flat row
  names the same table row as the pair `(rows e, time e)`: that is where `0 ≤ rows e < 40` and `0 ≤ time e < 128`, which
  the precondition states (outside that range the reference wraps and clamps an index while the kernel's flat row
  selects another row or none). The destination tokens need no condition: both programs drop an entry whose token is
  not in `[0, 4096)`.

  The modules: SegSum (the segment sum and the one-hot algebra), KPay (the body's arithmetic at an element), KAcc (the
  carried block by induction on the grid point), KBlocks (the arrays and blocks the region reads), KSum (the carried
  block as a sum over entries, hence the segment sum), KFinal (the write-back, the host's regrouping and appending, the
  kernel program's run), RefOps and RefValue (the reference's gather, index pair and scatter at an element, hence the
  segment sum), PreRanges (the index ranges out of the precondition), LibBlockSum (a sum taken block by block).
-/
import proofs.«407564_j22058952032948_1_alg».proof.Defs
import proofs.«407564_j22058952032948_1_alg».proof.Proof.Gen.Kernel
import proofs.«407564_j22058952032948_1_alg».proof.Proof.Gen.Kernel.Frame
import proofs.«407564_j22058952032948_1_alg».proof.Proof.Gen.KernelIdeal
import proofs.«407564_j22058952032948_1_alg».proof.Proof.Gen.KernelIdeal.Frame
import proofs.«407564_j22058952032948_1_alg».proof.Proof.Gen.ReferenceIdeal
import proofs.«407564_j22058952032948_1_alg».proof.Proof.Gen.ReferenceIdeal.Run
import proofs.«407564_j22058952032948_1_alg».proof.Proof.Gen.ReferenceIdeal.Read
import proofs.«407564_j22058952032948_1_alg».proof.Proof.Gen.Pre_finite_inputs
import proofs.«407564_j22058952032948_1_alg».proof.Proof.KFinal
import proofs.«407564_j22058952032948_1_alg».proof.Proof.KSum
import proofs.«407564_j22058952032948_1_alg».proof.Proof.RefValue
import proofs.«407564_j22058952032948_1_alg».proof.Proof.PreRanges
import Idealize.ShloMosaic.Adequacy
import Idealize.ShloMosaic.Init

noncomputable section

namespace Cert.Proof

open Idealize.ShloMosaic Idealize.ShloMosaic.ValueIdx Idealize.SL.Sem

/-- The word-level kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, under the precondition, both idealized programs end with the first
    argument's columns followed by the segment sum regrouped as 8 × 512 rows. -/
theorem algebraic : Cert.algebraic_KernelIdeal_ReferenceIdeal := by
  intro m ρ m' ρ' hpre hagree
  refine ⟨_, Cert.KernelIdeal.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2.1,
    (hagree c).2.2.2.2.1, (hagree c).2.2.2.2.2]
  have hr := fun e : Fin 65536 => (Cert.PreRanges.ranges_of_fn _ _ _ _ _ _ (hpre c) e).1
  have ht := fun e : Fin 65536 => (Cert.PreRanges.ranges_of_fn _ _ _ _ _ _ (hpre c) e).2
  have hX : Cert.ReferenceIdeal.Read.val_main_v19 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.KernelIdeal.Final.result m c := by
    funext j
    obtain ⟨tok, d, rfl⟩ : ∃ (tok : Fin 4096) (d : Fin 512), j = ix2 tok d := ⟨j 0, j 1, eq_ix2 j⟩
    exact (Cert.ReferenceIdeal.RefValue.refArray_apply _ _ _ _ _ (fun e => (hr e).1) (fun e => (ht e).1) tok d).trans
      (Cert.KernelIdeal.Sum.last_eq_segSum m c hr ht tok d).symm
  unfold Cert.ReferenceIdeal.Read.val_main_v21 Cert.ReferenceIdeal.Read.val_main_v20
  rw [hX]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
